-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x8 : Shape := ⟨2, ![800000, 8]⟩
abbrev S136x64 : Shape := ⟨2, ![136, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S136x64 : S_.BroadcastsInDim S136x64 (![] : Fin 0 → Fin S136x64.rank)
  reducesTo_S136x64_S_d0_1 : S136x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : IVec S2x800000 32) (main_arg2 : FVec F S800000x8 .f32) (main_arg3 : FVec F S136x64 .f32) (main_arg4 : FVec F S64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S136x64 .f32 := Host.absf main_arg3
  let main_cst_2 : FVec F S_ .f32 := constant S_ .f32 0x7F800000#32
  let main_v10 : FVec F S136x64 .f32 := broadcastInDim S136x64 ![] bcast_S_S136x64 main_cst_2
  let main_v11 : IVec S136x64 1 := cmpf .olt main_v9 main_v10
  let main_c_3 : IVec S_ 1 := constantI S_ 1 1#1
  let main_v12 : IVec S_ 1 := (fun x v => Host.reduce IntOp.andi x v reducesTo_S136x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x64 : Shape := ⟨2, ![50000, 64]⟩
abbrev S2x800000 : Shape := ⟨2, ![2, 800000]⟩
abbrev S800000x8 : Shape := ⟨2, ![800000, 8]⟩
abbrev S136x64 : Shape := ⟨2, ![136, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S8x64 : Shape := ⟨2, ![8, 64]⟩
abbrev S1x64 : Shape := ⟨2, ![1, 64]⟩
abbrev S8000x64 : Shape := ⟨2, ![8000, 64]⟩
abbrev S8000x8 : Shape := ⟨2, ![8000, 8]⟩

abbrev nBuf : Space → Nat
  | .hbm => 39
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x8, .f32⟩
  | .hbm, ⟨3, _⟩ => ⟨S136x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S64x64, .f32⟩
  | .hbm, ⟨30, _⟩ => ⟨S64x64, .f32⟩
  | .hbm, ⟨31, _⟩ => ⟨S8x64, .f32⟩
  | .hbm, ⟨32, _⟩ => ⟨S1x64, .f32⟩
  | .hbm, ⟨33, _⟩ => ⟨S1x64, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x8, .f32⟩
  | .local _ .vmem, ⟨5, _⟩ => ⟨S8000x8, .f32⟩
  | .local _ .vmem, ⟨6, _⟩ => ⟨S64x64, .f32⟩
  | .local _ .vmem, ⟨7, _⟩ => ⟨S64x64, .f32⟩
  | .local _ .vmem, ⟨8, _⟩ => ⟨S8x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S8000x64, .f32⟩
  | .local _ .vmem, ⟨13, _⟩ => ⟨S8000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S136x64_S64x64_0_0 : S136x64.Slices ![0, 0] S64x64
  slices_S136x64_S64x64_64_0 : S136x64.Slices ![64, 0] S64x64
  slices_S136x64_S8x64_128_0 : S136x64.Slices ![128, 0] S8x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x8_S8000x8_0_0 : ∀ a, (![0, 0] : Fin 2 → Nat) a + S8000x8.size a ≤ S8000x8.size a
  h_S8000x8 : 0 < S8000x8.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S8000x64_S64x64_S8000x64_1_0_0_1_n_n_wf : DotDims.WF S8000x64 S64x64 S8000x64 [1] [0] [0] [1] [] []
  dot_S8000x8_S8x64_S8000x64_1_0_0_1_n_n_wf : DotDims.WF S8000x8 S8x64 S8000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x8.size a ≤ S800000x8.size a
  hwx0_2 : ∀ i : grid0.Coords, EltTy.bits .f32 = 32 ∨ (Rect.block (s := S800000x8) S8000x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .f32 = 32 ∨ (Rect.block (s := S8x64) S8x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x8_S8x64_S8000x64_1_0_0_1_n_n : DotDims S8000x8 S8x64 S8000x64 where
  lhsContracting := [1]
  rhsContracting := [0]
  lhsNonContracting := [0]
  rhsNonContracting := [1]
  lhsBatch := []
  rhsBatch := []
  wf := dot_S8000x8_S8x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x8 : Shape := ⟨2, ![800000, 8]⟩
abbrev S136x64 : Shape := ⟨2, ![136, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x136 : Shape := ⟨2, ![800000, 136]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x8, .f32⟩
  | .hbm, ⟨3, _⟩ => ⟨S136x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x136, .f32⟩
  | .hbm, ⟨30, _⟩ => ⟨S800000x64, .f32⟩
  | .hbm, ⟨31, _⟩ => ⟨S1x64, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S800000x64, .f32⟩
  | .hbm, ⟨36, _⟩ => ⟨S800000x64, .f32⟩
  | .hbm, ⟨37, _⟩ => ⟨S800000x64, .f32⟩
  | .hbm, ⟨38, _⟩ => ⟨S1x64, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x8_S800000x136_d1 : Shape.Concatenates [S800000x64, S800000x64, S800000x8] S800000x136 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S800000x136_S136x64_S800000x64_1_0_0_1_n_n_wf : DotDims.WF S800000x136 S136x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x136_S136x64_S800000x64_1_0_0_1_n_n : DotDims S800000x136 S136x64 S800000x64 where
  lhsContracting := [1]
  rhsContracting := [0]
  lhsNonContracting := [0]
  rhsNonContracting := [1]
  lhsBatch := []
  rhsBatch := []
  wf := dot_S800000x136_S136x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Spec.lean ====
/-
  The message an edge sends in an edge convolution, as one function of arrays of extended reals.

  For an edge `e` with source features `xs e`, destination features `xd e` (64 each) and edge attributes `ea e` (8),
  the hidden unit `l` is pre-activated at

      pre e l = ((Σ k<64, xs e k · ws k l) + (Σ k<64, xd e k · wd k l) + (Σ k<8, ea e k · we k l)) + b1 l

  and the message's column `j` is

      msg e j = (Σ l<64, max (pre e l) 0 · w2 l j) + b2 j.

  The three weight blocks `ws`, `wd`, `we` are rows 0–63, 64–127 and 128–135 of one 136-row matrix; against the
  concatenated feature row the pre-activation is the single sum Σ k<136: that the two spellings agree is only the
  splitting of a finite sum in a commutative monoid (`sum_split136`), which holds on the extended reals with no
  finiteness assumption — no product is distributed over a sum anywhere.

  The function is stated for any number of rows `R`, because it reads row `e` of the three edge-indexed arrays and
  nothing else of them (`msg_congr`): a block of 8000 rows of the result is the same function of the matching blocks.
-/
import Idealize.ShloMosaic.PureOps.Ideal.Laws
import Idealize.ShloMosaic.Lib.ValueIdx

noncomputable section

open scoped BigOperators

namespace Cert.EdgeConv

open Idealize.ShloMosaic Idealize.ShloMosaic.ValueIdx

/-- A sum over 136 terms is the sum of its first 64, its next 64 and its last 8. -/
theorem sum_split136 {M : Type*} [AddCommMonoid M] (f : Fin 136 → M) :
    ∑ k : Fin 136, f k
      = ((∑ k : Fin 64, f ⟨k.val, by omega⟩) + ∑ k : Fin 64, f ⟨64 + k.val, by omega⟩) + ∑ k : Fin 8, f ⟨128 + k.val, by omega⟩ := by
  have h : ∑ k : Fin (64 + 64 + 8), f k
      = ((∑ k : Fin 64, f (Fin.castAdd 8 (Fin.castAdd 64 k))) + ∑ k : Fin 64, f (Fin.castAdd 8 (Fin.natAdd 64 k)))
        + ∑ k : Fin 8, f (Fin.natAdd (64 + 64) k) := by
    rw [Fin.sum_univ_add, Fin.sum_univ_add]
  exact h

variable (R : Nat)

/-- The pre-activation of hidden unit `l` on edge `e`: the three partial products, then the bias. -/
def pre (xs xd : FVec Ideal ⟨2, ![R, 64]⟩ .f32) (ea : FVec Ideal ⟨2, ![R, 8]⟩ .f32)
    (ws wd : FVec Ideal ⟨2, ![64, 64]⟩ .f32) (we : FVec Ideal ⟨2, ![8, 64]⟩ .f32) (b1 : FVec Ideal ⟨2, ![1, 64]⟩ .f32)
    (e : Fin R) (l : Fin 64) : EReal :=
  (((∑ k : Fin 64, xs (ix2 e k) * ws (ix2 k l)) + ∑ k : Fin 64, xd (ix2 e k) * wd (ix2 k l))
    + ∑ k : Fin 8, ea (ix2 e k) * we (ix2 k l)) + b1 (ix2 (0 : Fin 1) l)

/-- The message of edge `e`, column `j`: the rectified hidden layer through the second matrix, then the bias. -/
def msgAt (xs xd : FVec Ideal ⟨2, ![R, 64]⟩ .f32) (ea : FVec Ideal ⟨2, ![R, 8]⟩ .f32)
    (ws wd : FVec Ideal ⟨2, ![64, 64]⟩ .f32) (we : FVec Ideal ⟨2, ![8, 64]⟩ .f32) (b1 : FVec Ideal ⟨2, ![1, 64]⟩ .f32)
    (w2 : FVec Ideal ⟨2, ![64, 64]⟩ .f32) (b2 : FVec Ideal ⟨2, ![1, 64]⟩ .f32) (e : Fin R) (j : Fin 64) : EReal :=
  (∑ l : Fin 64, max (pre R xs xd ea ws wd we b1 e l) 0 * w2 (ix2 l j)) + b2 (ix2 (0 : Fin 1) j)

/-- The whole array of messages. -/
def msg (xs xd : FVec Ideal ⟨2, ![R, 64]⟩ .f32) (ea : FVec Ideal ⟨2, ![R, 8]⟩ .f32)
    (ws wd : FVec Ideal ⟨2, ![64, 64]⟩ .f32) (we : FVec Ideal ⟨2, ![8, 64]⟩ .f32) (b1 : FVec Ideal ⟨2, ![1, 64]⟩ .f32)
    (w2 : FVec Ideal ⟨2, ![64, 64]⟩ .f32) (b2 : FVec Ideal ⟨2, ![1, 64]⟩ .f32) : FVec Ideal ⟨2, ![R, 64]⟩ .f32 :=
  fun i => msgAt R xs xd ea ws wd we b1 w2 b2 (i 0) (i 1)

theorem msg_apply (xs xd : FVec Ideal ⟨2, ![R, 64]⟩ .f32) (ea : FVec Ideal ⟨2, ![R, 8]⟩ .f32)
    (ws wd : FVec Ideal ⟨2, ![64, 64]⟩ .f32) (we : FVec Ideal ⟨2, ![8, 64]⟩ .f32) (b1 : FVec Ideal ⟨2, ![1, 64]⟩ .f32)
    (w2 : FVec Ideal ⟨2, ![64, 64]⟩ .f32) (b2 : FVec Ideal ⟨2, ![1, 64]⟩ .f32) (e : Fin R) (j : Fin 64) :
    msg R xs xd ea ws wd we b1 w2 b2 (ix2 e j) = msgAt R xs xd ea ws wd we b1 w2 b2 e j := rfl

/-- The message of an edge depends on that edge's rows of the three edge-indexed arrays only, and on the weights and
    biases entry by entry: two families of arrays, with any numbers of rows, that agree there give the same message. -/
theorem msgAt_congr (R' : Nat)
    (xs xd : FVec Ideal ⟨2, ![R, 64]⟩ .f32) (ea : FVec Ideal ⟨2, ![R, 8]⟩ .f32)
    (ws wd : FVec Ideal ⟨2, ![64, 64]⟩ .f32) (we : FVec Ideal ⟨2, ![8, 64]⟩ .f32) (b1 : FVec Ideal ⟨2, ![1, 64]⟩ .f32)
    (w2 : FVec Ideal ⟨2, ![64, 64]⟩ .f32) (b2 : FVec Ideal ⟨2, ![1, 64]⟩ .f32)
    (xs' xd' : FVec Ideal ⟨2, ![R', 64]⟩ .f32) (ea' : FVec Ideal ⟨2, ![R', 8]⟩ .f32)
    (ws' wd' : FVec Ideal ⟨2, ![64, 64]⟩ .f32) (we' : FVec Ideal ⟨2, ![8, 64]⟩ .f32) (b1' : FVec Ideal ⟨2, ![1, 64]⟩ .f32)
    (w2' : FVec Ideal ⟨2, ![64, 64]⟩ .f32) (b2' : FVec Ideal ⟨2, ![1, 64]⟩ .f32)
    (e : Fin R) (e' : Fin R') (j : Fin 64)
    (hxs : ∀ k : Fin 64, xs (ix2 e k) = xs' (ix2 e' k)) (hxd : ∀ k : Fin 64, xd (ix2 e k) = xd' (ix2 e' k))
    (hea : ∀ k : Fin 8, ea (ix2 e k) = ea' (ix2 e' k))
    (hws : ∀ (k l : Fin 64), ws (ix2 k l) = ws' (ix2 k l)) (hwd : ∀ (k l : Fin 64), wd (ix2 k l) = wd' (ix2 k l))
    (hwe : ∀ (k : Fin 8) (l : Fin 64), we (ix2 k l) = we' (ix2 k l))
    (hb1 : ∀ l : Fin 64, b1 (ix2 (0 : Fin 1) l) = b1' (ix2 (0 : Fin 1) l))
    (hw2 : ∀ (l j : Fin 64), w2 (ix2 l j) = w2' (ix2 l j))
    (hb2 : ∀ j : Fin 64, b2 (ix2 (0 : Fin 1) j) = b2' (ix2 (0 : Fin 1) j)) :
    msgAt R xs xd ea ws wd we b1 w2 b2 e j = msgAt R' xs' xd' ea' ws' wd' we' b1' w2' b2' e' j := by
  unfold msgAt pre
  simp only [hxs, hxd, hea, hws, hwd, hwe, hb1, hw2, hb2]

end Cert.EdgeConv

end
-- ==== Proof.KernelBlock.lean ====
/-
  What the kernel's body stores, as a function of the nine blocks it loads: the edge-convolution message
  (`Cert.EdgeConv.msg`) of those blocks, at 8000 rows.

  The body is three matrix products into the zero accumulator added together, a bias row broadcast down the rows,
  a maximum with zero, a fourth product and a second bias row. At the ideal values a narrowing of the float format is
  the identity, each product with the plain dimension numbers is the sum over its contracted axis, and the broadcast
  of a one-row array reads that row: so entry `(p, q)` of the stored block is `msgAt` at row `p`, column `q`.
-/
import proofs.«137099_j14886356648763_1_alg».proof.Proof.Gen.KernelIdeal.Skeleton
import proofs.«137099_j14886356648763_1_alg».proof.Proof.LibPlainDot
import proofs.«137099_j14886356648763_1_alg».proof.Proof.Spec
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx Cert.EdgeConv

/-- A product of an 8000×64 block with a 64×64 matrix into the zero accumulator, at an entry. -/
theorem mm64 {φ₁ φ₂ : FTy} (a : FVec Ideal S8000x64 φ₁) (b : FVec Ideal S64x64 φ₂) (p : Fin 8000) (q : Fin 64) :
    matmul dot_S8000x64_S64x64_S8000x64_1_0_0_1_n_n none a b (constant S8000x64 .f32 0x00000000#32) (ix2 p q)
      = ∑ k : Fin 64, a (ix2 p k) * b (ix2 k q) :=
  PlainDot.matmul_zero_apply 8000 64 64 none a b (ix2 p q)

/-- A product of an 8000×8 block with an 8×64 matrix into the zero accumulator, at an entry. -/
theorem mm8 {φ₁ φ₂ : FTy} (a : FVec Ideal S8000x8 φ₁) (b : FVec Ideal S8x64 φ₂) (p : Fin 8000) (q : Fin 64) :
    matmul dot_S8000x8_S8x64_S8000x64_1_0_0_1_n_n none a b (constant S8000x64 .f32 0x00000000#32) (ix2 p q)
      = ∑ k : Fin 8, a (ix2 p k) * b (ix2 k q) :=
  PlainDot.matmul_zero_apply 8000 8 64 none a b (ix2 p q)

/-- A bias row broadcast down the 8000 rows reads its one row. -/
theorem biasRow (x : FVec Ideal S1x64 .f32) (p : Fin 8000) (q : Fin 64) :
    broadcastTo S8000x64 x broadcasts_S1x64_S8000x64 (ix2 p q) = x (ix2 (0 : Fin 1) q) :=
  broadcastTo_1b_ab_apply x broadcasts_S1x64_S8000x64 p q

/-- The stored block is the message function of the loaded blocks. -/
theorem pay_eq (x0 x1 : Vec Ideal S8000x64 .f32) (x2 : Vec Ideal S8000x8 .f32) (x3 x4 : Vec Ideal S64x64 .f32)
    (x5 : Vec Ideal S8x64 .f32) (x6 : Vec Ideal S1x64 .f32) (x7 : Vec Ideal S64x64 .f32) (x8 : Vec Ideal S1x64 .f32) :
    k0_pay1 (F := Ideal) x0 x1 x2 x3 x4 x5 x6 x7 x8 = msg 8000 x0 x1 x2 x3 x4 x5 x6 x7 x8 := by
  funext i
  obtain ⟨p, q, rfl⟩ : ∃ (p : Fin 8000) (q : Fin 64), i = ix2 p q := ⟨i 0, i 1, eq_ix2 i⟩
  rw [msg_apply]
  unfold k0_pay1 msgAt pre
  simp only [addf_apply, maximumf_apply, truncf_apply, mm64, mm8, shapeCast_self, biasRow, broadcast_apply,
    Ideal.ofBits_def, Ideal.ofBits_zero_f32]

end Cert.KernelIdeal.Block

end
-- ==== Proof.KernelValue.lean ====
/-
  The array of messages the kernel's region leaves, as one function of the arrays the region finds.

  The grid has 100 points; point `t` stages rows `8000 t … 8000 t + 7999` of the two gathered feature arrays and of
  the edge attributes, the whole of each weight and bias array, and writes back rows `8000 t … 8000 t + 7999` of the
  result. What it writes is the message function of its blocks (`Block.pay_eq`), and the message of an edge reads only
  that edge's rows (`msgAt_congr`): so point `t` writes block `t` of the message function of the WHOLE arrays. The 100
  blocks tile the 800000 rows, so that function is the array after the region.
-/
import proofs.«137099_j14886356648763_1_alg».proof.Proof.Gen.KernelIdeal.Frame
import proofs.«137099_j14886356648763_1_alg».proof.Proof.KernelBlock
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx Cert.EdgeConv
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the three edge-indexed inputs and the output move down the rows with the
    point, every other window stays at its one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Two message arrays, over any numbers of rows, agree at a pair of entries in the same column whose rows of the
    three edge-indexed arrays agree, when the weights and biases agree entry by entry. -/
theorem msg_rows (R R' : Nat)
    (xs xd : FVec Ideal ⟨2, ![R, 64]⟩ .f32) (ea : FVec Ideal ⟨2, ![R, 8]⟩ .f32)
    (ws wd : FVec Ideal ⟨2, ![64, 64]⟩ .f32) (we : FVec Ideal ⟨2, ![8, 64]⟩ .f32) (b1 : FVec Ideal ⟨2, ![1, 64]⟩ .f32)
    (w2 : FVec Ideal ⟨2, ![64, 64]⟩ .f32) (b2 : FVec Ideal ⟨2, ![1, 64]⟩ .f32)
    (xs' xd' : FVec Ideal ⟨2, ![R', 64]⟩ .f32) (ea' : FVec Ideal ⟨2, ![R', 8]⟩ .f32)
    (ws' wd' : FVec Ideal ⟨2, ![64, 64]⟩ .f32) (we' : FVec Ideal ⟨2, ![8, 64]⟩ .f32) (b1' : FVec Ideal ⟨2, ![1, 64]⟩ .f32)
    (w2' : FVec Ideal ⟨2, ![64, 64]⟩ .f32) (b2' : FVec Ideal ⟨2, ![1, 64]⟩ .f32)
    (p : Fin R) (q : Fin 64) (J : (⟨2, ![R', 64]⟩ : Shape).Idx)
    (hcol : (J 1).val = q.val)
    (hxs : ∀ k : Fin 64, xs (ix2 p k) = xs' (ix2 (J 0) k)) (hxd : ∀ k : Fin 64, xd (ix2 p k) = xd' (ix2 (J 0) k))
    (hea : ∀ k : Fin 8, ea (ix2 p k) = ea' (ix2 (J 0) k))
    (hws : ∀ (k l : Fin 64), ws (ix2 k l) = ws' (ix2 k l)) (hwd : ∀ (k l : Fin 64), wd (ix2 k l) = wd' (ix2 k l))
    (hwe : ∀ (k : Fin 8) (l : Fin 64), we (ix2 k l) = we' (ix2 k l))
    (hb1 : ∀ l : Fin 64, b1 (ix2 (0 : Fin 1) l) = b1' (ix2 (0 : Fin 1) l))
    (hw2 : ∀ (l j : Fin 64), w2 (ix2 l j) = w2' (ix2 l j))
    (hb2 : ∀ j : Fin 64, b2 (ix2 (0 : Fin 1) j) = b2' (ix2 (0 : Fin 1) j)) :
    msg R xs xd ea ws wd we b1 w2 b2 (ix2 p q) = msg R' xs' xd' ea' ws' wd' we' b1' w2' b2' J := by
  have hJ : J 1 = q := Fin.ext hcol
  show msgAt R xs xd ea ws wd we b1 w2 b2 p q = msgAt R' xs' xd' ea' ws' wd' we' b1' w2' b2' (J 0) (J 1)
  rw [hJ]
  exact msgAt_congr R R' xs xd ea ws wd we b1 w2 b2 xs' xd' ea' ws' wd' we' b1' w2' b2' p (J 0) q hxs hxd hea hws hwd hwe hb1 hw2 hb2

/-- Window 0 stages rows `8000 t … 8000 t + 7999` of its array at point `t`. -/
theorem read0 (c : Dev nD) (t : Fin cfg0.N) (p : Fin 8000) (k : Fin 64) (r : Fin 800000) (hr : r.val = t.val * 8000 + p.val) :
    iblk m c 0 t (ix2 p k) = V m c main_v10 (ix2 r k) := by
  obtain ⟨⟨e00, e01⟩, ⟨e10, e11⟩, ⟨e20, e21⟩, -⟩ := idx_facts t
  show V m c main_v10 (((cfg0.win 0).blk t).view.emb (ix2 p k)) = _
  refine congrArg (V m c main_v10) (funext fun ax => Fin.ext ?_)
  match ax with
  | ⟨0, _⟩ => show win0_0.index t (0 : Fin 2) * 8000 + 1 * p.val = r.val; omega
  | ⟨1, _⟩ => show win0_0.index t (1 : Fin 2) * 64 + 1 * k.val = k.val; omega

/-- Window 1 stages rows `8000 t … 8000 t + 7999` of its array at point `t`. -/
theorem read1 (c : Dev nD) (t : Fin cfg0.N) (p : Fin 8000) (k : Fin 64) (r : Fin 800000) (hr : r.val = t.val * 8000 + p.val) :
    iblk m c 1 t (ix2 p k) = V m c main_v17 (ix2 r k) := by
  obtain ⟨⟨e00, e01⟩, ⟨e10, e11⟩, ⟨e20, e21⟩, -⟩ := idx_facts t
  show V m c main_v17 (((cfg0.win 1).blk t).view.emb (ix2 p k)) = _
  refine congrArg (V m c main_v17) (funext fun ax => Fin.ext ?_)
  match ax with
  | ⟨0, _⟩ => show win0_1.index t (0 : Fin 2) * 8000 + 1 * p.val = r.val; omega
  | ⟨1, _⟩ => show win0_1.index t (1 : Fin 2) * 64 + 1 * k.val = k.val; omega

/-- Window 2 stages rows `8000 t … 8000 t + 7999` of its array at point `t`. -/
theorem read2 (c : Dev nD) (t : Fin cfg0.N) (p : Fin 8000) (k : Fin 8) (r : Fin 800000) (hr : r.val = t.val * 8000 + p.val) :
    iblk m c 2 t (ix2 p k) = V m c main_arg2 (ix2 r k) := by
  obtain ⟨⟨e00, e01⟩, ⟨e10, e11⟩, ⟨e20, e21⟩, -⟩ := idx_facts t
  show V m c main_arg2 (((cfg0.win 2).blk t).view.emb (ix2 p k)) = _
  refine congrArg (V m c main_arg2) (funext fun ax => Fin.ext ?_)
  match ax with
  | ⟨0, _⟩ => show win0_2.index t (0 : Fin 2) * 8000 + 1 * p.val = r.val; omega
  | ⟨1, _⟩ => show win0_2.index t (1 : Fin 2) * 8 + 1 * k.val = k.val; omega

/-- Window 3 stages the whole of its array at every point. -/
theorem read3 (c : Dev nD) (t : Fin cfg0.N) (k : Fin 64) (l : Fin 64) :
    iblk m c 3 t (ix2 k l) = V m c main_v18 (ix2 k l) := by
  obtain ⟨-, -, -, ⟨e30, e31⟩, ⟨e40, e41⟩, ⟨e50, e51⟩, ⟨e60, e61⟩, ⟨e70, e71⟩, ⟨e80, e81⟩, -⟩ := idx_facts t
  show V m c main_v18 (((cfg0.win 3).blk t).view.emb (ix2 k l)) = _
  refine congrArg (V m c main_v18) (funext fun ax => Fin.ext ?_)
  match ax with
  | ⟨0, _⟩ => show win0_3.index t (0 : Fin 2) * 64 + 1 * k.val = k.val; omega
  | ⟨1, _⟩ => show win0_3.index t (1 : Fin 2) * 64 + 1 * l.val = l.val; omega

/-- Window 4 stages the whole of its array at every point. -/
theorem read4 (c : Dev nD) (t : Fin cfg0.N) (k : Fin 64) (l : Fin 64) :
    iblk m c 4 t (ix2 k l) = V m c main_v19 (ix2 k l) := by
  obtain ⟨-, -, -, ⟨e30, e31⟩, ⟨e40, e41⟩, ⟨e50, e51⟩, ⟨e60, e61⟩, ⟨e70, e71⟩, ⟨e80, e81⟩, -⟩ := idx_facts t
  show V m c main_v19 (((cfg0.win 4).blk t).view.emb (ix2 k l)) = _
  refine congrArg (V m c main_v19) (funext fun ax => Fin.ext ?_)
  match ax with
  | ⟨0, _⟩ => show win0_4.index t (0 : Fin 2) * 64 + 1 * k.val = k.val; omega
  | ⟨1, _⟩ => show win0_4.index t (1 : Fin 2) * 64 + 1 * l.val = l.val; omega

/-- Window 5 stages the whole of its array at every point. -/
theorem read5 (c : Dev nD) (t : Fin cfg0.N) (k : Fin 8) (l : Fin 64) :
    iblk m c 5 t (ix2 k l) = V m c main_v20 (ix2 k l) := by
  obtain ⟨-, -, -, ⟨e30, e31⟩, ⟨e40, e41⟩, ⟨e50, e51⟩, ⟨e60, e61⟩, ⟨e70, e71⟩, ⟨e80, e81⟩, -⟩ := idx_facts t
  show V m c main_v20 (((cfg0.win 5).blk t).view.emb (ix2 k l)) = _
  refine congrArg (V m c main_v20) (funext fun ax => Fin.ext ?_)
  match ax with
  | ⟨0, _⟩ => show win0_5.index t (0 : Fin 2) * 8 + 1 * k.val = k.val; omega
  | ⟨1, _⟩ => show win0_5.index t (1 : Fin 2) * 64 + 1 * l.val = l.val; omega

/-- Window 6 stages the whole of its array at every point. -/
theorem read6 (c : Dev nD) (t : Fin cfg0.N) (u : Fin 1) (l : Fin 64) :
    iblk m c 6 t (ix2 u l) = V m c main_v21 (ix2 u l) := by
  obtain ⟨-, -, -, ⟨e30, e31⟩, ⟨e40, e41⟩, ⟨e50, e51⟩, ⟨e60, e61⟩, ⟨e70, e71⟩, ⟨e80, e81⟩, -⟩ := idx_facts t
  show V m c main_v21 (((cfg0.win 6).blk t).view.emb (ix2 u l)) = _
  refine congrArg (V m c main_v21) (funext fun ax => Fin.ext ?_)
  match ax with
  | ⟨0, _⟩ => show win0_6.index t (0 : Fin 2) * 1 + 1 * u.val = u.val; omega
  | ⟨1, _⟩ => show win0_6.index t (1 : Fin 2) * 64 + 1 * l.val = l.val; omega

/-- Window 7 stages the whole of its array at every point. -/
theorem read7 (c : Dev nD) (t : Fin cfg0.N) (l : Fin 64) (j : Fin 64) :
    iblk m c 7 t (ix2 l j) = V m c main_arg5 (ix2 l j) := by
  obtain ⟨-, -, -, ⟨e30, e31⟩, ⟨e40, e41⟩, ⟨e50, e51⟩, ⟨e60, e61⟩, ⟨e70, e71⟩, ⟨e80, e81⟩, -⟩ := idx_facts t
  show V m c main_arg5 (((cfg0.win 7).blk t).view.emb (ix2 l j)) = _
  refine congrArg (V m c main_arg5) (funext fun ax => Fin.ext ?_)
  match ax with
  | ⟨0, _⟩ => show win0_7.index t (0 : Fin 2) * 64 + 1 * l.val = l.val; omega
  | ⟨1, _⟩ => show win0_7.index t (1 : Fin 2) * 64 + 1 * j.val = j.val; omega

/-- Window 8 stages the whole of its array at every point. -/
theorem read8 (c : Dev nD) (t : Fin cfg0.N) (u : Fin 1) (j : Fin 64) :
    iblk m c 8 t (ix2 u j) = V m c main_v22 (ix2 u j) := by
  obtain ⟨-, -, -, ⟨e30, e31⟩, ⟨e40, e41⟩, ⟨e50, e51⟩, ⟨e60, e61⟩, ⟨e70, e71⟩, ⟨e80, e81⟩, -⟩ := idx_facts t
  show V m c main_v22 (((cfg0.win 8).blk t).view.emb (ix2 u j)) = _
  refine congrArg (V m c main_v22) (funext fun ax => Fin.ext ?_)
  match ax with
  | ⟨0, _⟩ => show win0_8.index t (0 : Fin 2) * 1 + 1 * u.val = u.val; omega
  | ⟨1, _⟩ => show win0_8.index t (1 : Fin 2) * 64 + 1 * j.val = j.val; omega

/-- WHAT POINT `t` WRITES BACK is block `t` of the message function of the arrays as the region finds them. -/
theorem flushed_eq (c : Dev nD) (t : Fin cfg0.N) :
    (dats m 0 c).flushed 9 t
      = ((cfg0.win 9).blk t).view.read (Elt Ideal) (msg 800000 (V m c main_v10) (V m c main_v17) (V m c main_arg2) (V m c main_v18) (V m c main_v19) (V m c main_v20) (V m c main_v21) (V m c main_arg5) (V m c main_v22)) := by
  show (cfg0.win 9).cut (grid0.coords t) ((dats m 0 c).after 9 t) = _
  rw [after0_9]
  unfold out0_9
  rw [View.canon_unit_zero hz]
  simp only [View.ld_unit_zero (S := S8000x64) hz, View.ld_unit_zero (S := S8000x8) hz, View.ld_unit_zero (S := S64x64) hz,
    View.ld_unit_zero (S := S8x64) hz, View.ld_unit_zero (S := S1x64) hz]
  rw [Block.pay_eq]
  obtain ⟨-, -, -, -, -, -, -, -, -, ⟨e90, e91⟩⟩ := idx_facts t
  funext j
  obtain ⟨p, q, rfl⟩ : ∃ (p : Fin 8000) (q : Fin 64), j = ix2 p q := ⟨j 0, j 1, eq_ix2 j⟩
  show msg 8000 (iblk m c 0 t) (iblk m c 1 t) (iblk m c 2 t) (iblk m c 3 t) (iblk m c 4 t) (iblk m c 5 t) (iblk m c 6 t) (iblk m c 7 t) (iblk m c 8 t) (ix2 p q)
    = msg 800000 (V m c main_v10) (V m c main_v17) (V m c main_arg2) (V m c main_v18) (V m c main_v19) (V m c main_v20) (V m c main_v21) (V m c main_arg5) (V m c main_v22) (((cfg0.win 9).blk t).view.emb (ix2 p q))
  have hrow : ((((cfg0.win 9).blk t).view.emb (ix2 p q)) 0).val = t.val * 8000 + p.val := by
    show win0_9.index t (0 : Fin 2) * 8000 + 1 * p.val = t.val * 8000 + p.val
    omega
  have hcol : ((((cfg0.win 9).blk t).view.emb (ix2 p q)) 1).val = q.val := by
    show win0_9.index t (1 : Fin 2) * 64 + 1 * q.val = q.val
    omega
  exact msg_rows 8000 800000 (iblk m c 0 t) (iblk m c 1 t) (iblk m c 2 t) (iblk m c 3 t) (iblk m c 4 t) (iblk m c 5 t) (iblk m c 6 t) (iblk m c 7 t) (iblk m c 8 t) (V m c main_v10) (V m c main_v17) (V m c main_arg2) (V m c main_v18) (V m c main_v19) (V m c main_v20) (V m c main_v21) (V m c main_arg5) (V m c main_v22) p q _ hcol
    (fun k => read0 m c t p k _ hrow) (fun k => read1 m c t p k _ hrow) (fun k => read2 m c t p k _ hrow)
    (fun k l => read3 m c t k l) (fun k l => read4 m c t k l) (fun k l => read5 m c t k l)
    (fun l => read6 m c t 0 l) (fun l j => read7 m c t l j) (fun j => read8 m c t 0 j)

/-- An index of the result array is in point `t`'s block iff each coordinate is in the block's range on its axis. -/
theorem mem_blk (t : Fin cfg0.N) (i : S800000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v23).slice (win0_9.rect t)).set ↔ _
  rw [View.set_slice_whole, Rect.mem_set_unit]
  exact Iff.rfl

/-- Every index of the result array is in the block of the point its row falls to: the blocks tile the array. -/
theorem cover (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have hN : grid0.N = 100 := N_0
  have hlt : (i 0).val / 8000 < grid0.N := by omega
  obtain ⟨-, -, -, -, -, -, -, -, -, ⟨e90, e91⟩⟩ := idx_facts ⟨(i 0).val / 8000, hlt⟩
  refine ⟨⟨(i 0).val / 8000, hlt⟩, flush0_9 _, ?_⟩
  rw [mem_blk]
  intro a
  match a with
  | ⟨0, _⟩ =>
    show win0_9.index ⟨(i 0).val / 8000, hlt⟩ (0 : Fin 2) * 8000 ≤ (i 0).val ∧ (i 0).val < win0_9.index ⟨(i 0).val / 8000, hlt⟩ (0 : Fin 2) * 8000 + 8000
    have e : win0_9.index ⟨(i 0).val / 8000, hlt⟩ (0 : Fin 2) = (i 0).val / 8000 := e90
    omega
  | ⟨1, _⟩ =>
    show win0_9.index ⟨(i 0).val / 8000, hlt⟩ (1 : Fin 2) * 64 ≤ (i 1).val ∧ (i 1).val < win0_9.index ⟨(i 0).val / 8000, hlt⟩ (1 : Fin 2) * 64 + 64
    omega

/-- THE ARRAY of messages after the region. -/
theorem final (c : Dev nD) :
    (dats m 0 c).arrAt 9 cfg0.N = msg 800000 (V m c main_v10) (V m c main_v17) (V m c main_arg2) (V m c main_v18) (V m c main_v19) (V m c main_v20) (V m c main_v21) (V m c main_arg5) (V m c main_v22) :=
  (dats m 0 c).arrAt_eq_of_cover 9 _ (fun t _ => flushed_eq m c t) cover

end Cert.KernelIdeal.KValue

end
-- ==== Proof.RefValue.lean ====
/-
  The reference's array of messages is the message function (`Cert.EdgeConv.msg`) of the two gathered feature arrays,
  the edge attributes, the three row blocks of the first weight matrix, and the two biases as one-row arrays.

  The reference concatenates the two gathered arrays and the edge attributes along the columns and multiplies by the
  whole 136-row matrix. Read at an entry, the product is a sum over the 136 concatenated columns; split at columns 64
  and 128 (`sum_split136`) each part reads one of the three pieces against the matching rows of the matrix. The bias
  is a vector broadcast through a one-row array, the rectifier a maximum with a broadcast zero.
-/
import proofs.«137099_j14886356648763_1_alg».proof.Proof.Gen.ReferenceIdeal.Read
import proofs.«137099_j14886356648763_1_alg».proof.Proof.Spec
import Idealize.ShloMosaic.Lib.ValueLayout

noncomputable section

open scoped BigOperators

namespace Cert.ReferenceIdeal.RefValue

open Cert.ReferenceIdeal Cert.ReferenceIdeal.Gen Cert.ReferenceIdeal.Read Idealize.ShloMosaic Idealize.ShloMosaic.ValueIdx
open Cert.EdgeConv

variable {α : Type}

/-! ## The concatenated row, piece by piece -/

/-- Columns 0–63 of the concatenation are the first piece. -/
theorem cat_fst (y0 y1 : S800000x64.Idx → α) (y2 : S800000x8.Idx → α) (e : Fin 800000) (k : Fin 64) :
    concatenate S800000x136 1 [⟨S800000x64, y0⟩, ⟨S800000x64, y1⟩, ⟨S800000x8, y2⟩]
      concatenates_S800000x64_S800000x64_S800000x8_S800000x136_d1 (ix2 e (⟨k.val, by omega⟩ : Fin 136)) = y0 (ix2 e k) :=
  concatenate_apply_piece (t := S800000x136) 1 _ _ _ 0 (by show (0 : Nat) < 3; omega) S800000x64 y0 rfl rfl 0 rfl (ix2 e k)
    (fun b hb => by
      match b with
      | ⟨0, _⟩ => rfl
      | ⟨1, _⟩ => exact absurd rfl hb)
    (Nat.zero_add _)

/-- Columns 64–127 are the second piece. -/
theorem cat_snd (y0 y1 : S800000x64.Idx → α) (y2 : S800000x8.Idx → α) (e : Fin 800000) (k : Fin 64) :
    concatenate S800000x136 1 [⟨S800000x64, y0⟩, ⟨S800000x64, y1⟩, ⟨S800000x8, y2⟩]
      concatenates_S800000x64_S800000x64_S800000x8_S800000x136_d1 (ix2 e (⟨64 + k.val, by omega⟩ : Fin 136)) = y1 (ix2 e k) :=
  concatenate_apply_piece (t := S800000x136) 1 _ _ _ 1 (by show (1 : Nat) < 3; omega) S800000x64 y1 rfl rfl 64 rfl (ix2 e k)
    (fun b hb => by
      match b with
      | ⟨0, _⟩ => rfl
      | ⟨1, _⟩ => exact absurd rfl hb)
    rfl

/-- Columns 128–135 are the third piece. -/
theorem cat_trd (y0 y1 : S800000x64.Idx → α) (y2 : S800000x8.Idx → α) (e : Fin 800000) (k : Fin 8) :
    concatenate S800000x136 1 [⟨S800000x64, y0⟩, ⟨S800000x64, y1⟩, ⟨S800000x8, y2⟩]
      concatenates_S800000x64_S800000x64_S800000x8_S800000x136_d1 (ix2 e (⟨128 + k.val, by omega⟩ : Fin 136)) = y2 (ix2 e k) :=
  concatenate_apply_piece (t := S800000x136) 1 _ _ _ 2 (by show (2 : Nat) < 3; omega) S800000x8 y2 rfl rfl 128 rfl (ix2 e k)
    (fun b hb => by
      match b with
      | ⟨0, _⟩ => rfl
      | ⟨1, _⟩ => exact absurd rfl hb)
    rfl

/-! ## The generated index maps at coordinates -/

theorem lidx24 (e : Fin 800000) (j l : Fin 64) : lidx_main_v24 (ix2 e j) l = ix2 e l :=
  funext fun a => Fin.ext (by match a with | ⟨0, _⟩ => rfl | ⟨1, _⟩ => rfl)
theorem ridx24 (e : Fin 800000) (j l : Fin 64) : ridx_main_v24 (ix2 e j) l = ix2 l j :=
  funext fun a => Fin.ext (by match a with | ⟨0, _⟩ => rfl | ⟨1, _⟩ => rfl)
theorem lidx19 (e : Fin 800000) (l : Fin 64) (k : Fin 136) : lidx_main_v19 (ix2 e l) k = ix2 e k :=
  funext fun a => Fin.ext (by match a with | ⟨0, _⟩ => rfl | ⟨1, _⟩ => rfl)
theorem ridx19 (e : Fin 800000) (l : Fin 64) (k : Fin 136) : ridx_main_v19 (ix2 e l) k = ix2 k l :=
  funext fun a => Fin.ext (by match a with | ⟨0, _⟩ => rfl | ⟨1, _⟩ => rfl)
theorem idx26 (e : Fin 800000) (j : Fin 64) : idx_main_v26 (ix2 e j) = ix2 (0 : Fin 1) j :=
  funext fun a => Fin.ext (by match a with | ⟨0, _⟩ => rfl | ⟨1, _⟩ => rfl)
theorem idx25 (j : Fin 64) : idx_main_v25 (ix2 (0 : Fin 1) j) = ix1 j :=
  funext fun a => Fin.ext (by match a with | ⟨0, _⟩ => rfl)
theorem idx21 (e : Fin 800000) (l : Fin 64) : idx_main_v21 (ix2 e l) = ix2 (0 : Fin 1) l :=
  funext fun a => Fin.ext (by match a with | ⟨0, _⟩ => rfl | ⟨1, _⟩ => rfl)
theorem idx20 (l : Fin 64) : idx_main_v20 (ix2 (0 : Fin 1) l) = ix1 l :=
  funext fun a => Fin.ext (by match a with | ⟨0, _⟩ => rfl)

/-! ## The pre-activation and the message -/

/-- The reference's hidden pre-activation at an entry: the three partial sums over the pieces, then the bias. -/
theorem pre_eq (x0 : (⟨S50000x64, .f32⟩ : BufTy).Contents (Elt Ideal)) (x1 : (⟨S2x800000, .i32⟩ : BufTy).Contents (Elt Ideal))
    (x2 : (⟨S800000x8, .f32⟩ : BufTy).Contents (Elt Ideal)) (x3 : (⟨S136x64, .f32⟩ : BufTy).Contents (Elt Ideal))
    (x4 : (⟨S64, .f32⟩ : BufTy).Contents (Elt Ideal))
    (ws wd : FVec Ideal ⟨2, ![64, 64]⟩ .f32) (we : FVec Ideal ⟨2, ![8, 64]⟩ .f32) (b1 : FVec Ideal ⟨2, ![1, 64]⟩ .f32)
    (hws : ∀ (k l : Fin 64), ws (ix2 k l) = x3 (ix2 (⟨k.val, by omega⟩ : Fin 136) l))
    (hwd : ∀ (k l : Fin 64), wd (ix2 k l) = x3 (ix2 (⟨64 + k.val, by omega⟩ : Fin 136) l))
    (hwe : ∀ (k : Fin 8) (l : Fin 64), we (ix2 k l) = x3 (ix2 (⟨128 + k.val, by omega⟩ : Fin 136) l))
    (hb1 : ∀ l : Fin 64, b1 (ix2 (0 : Fin 1) l) = x4 (ix1 l))
    (e : Fin 800000) (l : Fin 64) :
    val_main_v22 (F := Ideal) x0 x1 x2 x3 x4 (ix2 e l)
      = pre 800000 (val_main_v10 (F := Ideal) x0 x1) (val_main_v17 (F := Ideal) x0 x1) x2 ws wd we b1 e l := by
  unfold pre
  rw [val_main_v22_apply, val_main_v19_apply, val_main_v21_apply, val_main_v20_apply, idx21, idx20, sum_split136]
  simp only [lidx19, ridx19, hws, hwd, hwe, hb1]
  unfold val_main_v18
  simp only [cat_fst, cat_snd, cat_trd]
  rfl

/-- The reference's array of messages is the message function of its pieces. -/
theorem msg_eq (x0 : (⟨S50000x64, .f32⟩ : BufTy).Contents (Elt Ideal)) (x1 : (⟨S2x800000, .i32⟩ : BufTy).Contents (Elt Ideal))
    (x2 : (⟨S800000x8, .f32⟩ : BufTy).Contents (Elt Ideal)) (x3 : (⟨S136x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal))
    (ws wd : FVec Ideal ⟨2, ![64, 64]⟩ .f32) (we : FVec Ideal ⟨2, ![8, 64]⟩ .f32) (b1 b2 : FVec Ideal ⟨2, ![1, 64]⟩ .f32)
    (hws : ∀ (k l : Fin 64), ws (ix2 k l) = x3 (ix2 (⟨k.val, by omega⟩ : Fin 136) l))
    (hwd : ∀ (k l : Fin 64), wd (ix2 k l) = x3 (ix2 (⟨64 + k.val, by omega⟩ : Fin 136) l))
    (hwe : ∀ (k : Fin 8) (l : Fin 64), we (ix2 k l) = x3 (ix2 (⟨128 + k.val, by omega⟩ : Fin 136) l))
    (hb1 : ∀ l : Fin 64, b1 (ix2 (0 : Fin 1) l) = x4 (ix1 l))
    (hb2 : ∀ j : Fin 64, b2 (ix2 (0 : Fin 1) j) = x6 (ix1 j)) :
    val_main_v27 (F := Ideal) x0 x1 x2 x3 x4 x5 x6
      = msg 800000 (val_main_v10 (F := Ideal) x0 x1) (val_main_v17 (F := Ideal) x0 x1) x2 ws wd we b1 x5 b2 := by
  funext i
  obtain ⟨e, j, rfl⟩ : ∃ (e : Fin 800000) (j : Fin 64), i = ix2 e j := ⟨i 0, i 1, eq_ix2 i⟩
  rw [msg_apply]
  unfold msgAt
  rw [val_main_v27_apply, val_main_v24_apply, val_main_v26_apply, val_main_v25_apply, idx26, idx25, hb2]
  simp only [lidx24, ridx24, val_main_v23_apply, val_main_call0_v0_apply, val_main_call0_cst_apply,
    pre_eq x0 x1 x2 x3 x4 ws wd we b1 hws hwd hwe hb1, Ideal.ofBits_def, Ideal.ofBits_zero_f32]
  rfl

end Cert.ReferenceIdeal.RefValue

end
-- ==== Proof.Bridge.lean ====
/-
  The two programs compute one array.

  Both gather the source and destination feature rows with the same operations on the index input, both end by adding
  the messages into the destination nodes with the same scatter on the same indices; between the two the kernel's
  region leaves the message function of the gathered arrays, the edge attributes, the three row blocks of the first
  weight matrix and the biases as one-row arrays (`KValue.final`), and the reference's stage before its scatter is that
  same function (`RefValue.msg_eq`). So the kernel's result is the reference's last stage read at the kernel's own
  arguments; nothing about the gather or the scatter is opened.
-/
import proofs.«137099_j14886356648763_1_alg».proof.Proof.KernelValue
import proofs.«137099_j14886356648763_1_alg».proof.Proof.RefValue
import proofs.«137099_j14886356648763_1_alg».proof.Proof.Gen.ReferenceIdeal.Run
import Idealize.ShloMosaic.Lib.StableHlo.Run
import Idealize.ShloMosaic.Lib.ValueLayout

noncomputable section

namespace Cert.KernelIdeal.Bridge

open Cert.KernelIdeal Cert.KernelIdeal.Gen Idealize.ShloMosaic Idealize.ShloMosaic.TcCoe Idealize.SL.Sem
open Idealize.ShloMosaic.StableHlo Idealize.ShloMosaic.ValueIdx Cert.EdgeConv
open Idealize.ShloMosaic.Pipeline (Dat)

variable (m : (ℓ : Loc nD τ sig) → Buf (Elt Ideal) ℓ) (ρ : Dev nD → PrngReg)

/-! ## The arrays the region finds, from the arguments -/

/-- The gathered source rows are the reference's. -/
theorem V_v10 (c : Dev nD) : V m c main_v10
    = Cert.ReferenceIdeal.Read.val_main_v10 (F := Ideal) (m ((c : Thread nD τ).loc main_arg0)) (m ((c : Thread nD τ).loc main_arg1)) := by
  show StableHlo.after hostOps0 (fun b => m (c, b)) (Proc.devRef .tc main_v10) = _
  after_results
  rfl

/-- The gathered destination rows are the reference's. -/
theorem V_v17 (c : Dev nD) : V m c main_v17
    = Cert.ReferenceIdeal.Read.val_main_v17 (F := Ideal) (m ((c : Thread nD τ).loc main_arg0)) (m ((c : Thread nD τ).loc main_arg1)) := by
  show StableHlo.after hostOps0 (fun b => m (c, b)) (Proc.devRef .tc main_v17) = _
  after_results
  rfl

/-- The destination indices are the reference's. -/
theorem V_v3 (c : Dev nD) : V m c main_v3 = Cert.ReferenceIdeal.Read.val_main_v3 (F := Ideal) (m ((c : Thread nD τ).loc main_arg1)) := by
  show StableHlo.after hostOps0 (fun b => m (c, b)) (Proc.devRef .tc main_v3) = _
  after_results
  rfl

/-- Rows 0–63 of the first weight matrix. -/
theorem V_v18 (c : Dev nD) (k l : Fin 64) :
    V m c main_v18 (ix2 k l) = m ((c : Thread nD τ).loc main_arg3) (ix2 (⟨k.val, by omega⟩ : Fin 136) l) := by
  have e : V m c main_v18 = extractStridedSlice S64x64 ![0, 0] (m ((c : Thread nD τ).loc main_arg3)) slices_S136x64_S64x64_0_0 := by
    show StableHlo.after hostOps0 (fun b => m (c, b)) (Proc.devRef .tc main_v18) = _
    after_results
  rw [e]
  exact slice2_axis0_apply (n0 := 136) (n1 := 64) (m := 64) 0 _ slices_S136x64_S64x64_0_0 k l _ (Nat.zero_add _).symm

/-- Rows 64–127 of the first weight matrix. -/
theorem V_v19 (c : Dev nD) (k l : Fin 64) :
    V m c main_v19 (ix2 k l) = m ((c : Thread nD τ).loc main_arg3) (ix2 (⟨64 + k.val, by omega⟩ : Fin 136) l) := by
  have e : V m c main_v19 = extractStridedSlice S64x64 ![64, 0] (m ((c : Thread nD τ).loc main_arg3)) slices_S136x64_S64x64_64_0 := by
    show StableHlo.after hostOps0 (fun b => m (c, b)) (Proc.devRef .tc main_v19) = _
    after_results
  rw [e]
  exact slice2_axis0_apply (n0 := 136) (n1 := 64) (m := 64) 64 _ slices_S136x64_S64x64_64_0 k l _ rfl

/-- Rows 128–135 of the first weight matrix. -/
theorem V_v20 (c : Dev nD) (k : Fin 8) (l : Fin 64) :
    V m c main_v20 (ix2 k l) = m ((c : Thread nD τ).loc main_arg3) (ix2 (⟨128 + k.val, by omega⟩ : Fin 136) l) := by
  have e : V m c main_v20 = extractStridedSlice S8x64 ![128, 0] (m ((c : Thread nD τ).loc main_arg3)) slices_S136x64_S8x64_128_0 := by
    show StableHlo.after hostOps0 (fun b => m (c, b)) (Proc.devRef .tc main_v20) = _
    after_results
  rw [e]
  exact slice2_axis0_apply (n0 := 136) (n1 := 64) (m := 8) 128 _ slices_S136x64_S8x64_128_0 k l _ rfl

/-- The first bias as a one-row array. -/
theorem V_v21 (c : Dev nD) (l : Fin 64) :
    V m c main_v21 (ix2 (0 : Fin 1) l) = m ((c : Thread nD τ).loc main_arg4) (ix1 l) := by
  have e : V m c main_v21 = shapeCast S1x64 (m ((c : Thread nD τ).loc main_arg4)) shapeCasts_S64_S1x64 := by
    show StableHlo.after hostOps0 (fun b => m (c, b)) (Proc.devRef .tc main_v21) = _
    after_results
    rfl
  rw [e]
  exact shapeCast_a_1a_apply (a := 64) _ shapeCasts_S64_S1x64 0 l

/-- The second bias as a one-row array. -/
theorem V_v22 (c : Dev nD) (j : Fin 64) :
    V m c main_v22 (ix2 (0 : Fin 1) j) = m ((c : Thread nD τ).loc main_arg6) (ix1 j) := by
  have e : V m c main_v22 = shapeCast S1x64 (m ((c : Thread nD τ).loc main_arg6)) shapeCasts_S64_S1x64 := by
    show StableHlo.after hostOps0 (fun b => m (c, b)) (Proc.devRef .tc main_v22) = _
    after_results
    rfl
  rw [e]
  exact shapeCast_a_1a_apply (a := 64) _ shapeCasts_S64_S1x64 0 j

/-! ## The lines after the region -/

/-- The program's result: the messages left by the region, added into the zero array at the destination indices. -/
theorem tail_eq (c : Dev nD) :
    Pipeline.afterTail₀ cfgs (dats m) 0 (V0 m) [hostOps1] c main_v26
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (V m c main_v3))
          ((dats m 0 c).arrAt 9 cfg0.N) := by
  unfold Pipeline.afterTail₀
  show StableHlo.after hostOps1 _ (Proc.devRef .tc main_v26) = _
  after_results
  have h23 : Pipeline.withArrays (cfgs 0).spec c (V0 m c) (fun w => (dats m 0 c).arrAt w (cfgs 0).N) (Proc.devRef .tc main_v23)
      = (dats m 0 c).arrAt 9 cfg0.N := Pipeline.withArrays_arr spec0 launch0.win.arr_inj c _ _ 9
  have h3 : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  rw [h23, h3]

/-- The kernel program's result is the reference's last stage at the kernel's arguments. -/
theorem result_eq (c : Dev nD) :
    Pipeline.afterTail₀ cfgs (dats m) 0 (V0 m) [hostOps1] c main_v26
      = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [tail_eq m c, KValue.final m c, V_v10 m c, V_v17 m c, V_main_arg2 m c, V_main_arg5 m c, V_v3 m c]
  unfold Cert.ReferenceIdeal.Read.val_main_v30
  rw [Cert.ReferenceIdeal.RefValue.msg_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (V m c main_v18) (V m c main_v19) (V m c main_v20) (V m c main_v21) (V m c main_v22)
    (V_v18 m c) (V_v19 m c) (V_v20 m c) (V_v21 m c) (V_v22 m c)]
  rfl

/-! ## The run -/

/-- Every weakly fair execution of the kernel's program ends with the result at the reference's last stage of the
    arguments, the arguments unchanged. -/
theorem run : θ_run defs (onTc (τ := τ) (main (F := Ideal))) ⟨m, fun _ => 0, ρ⟩ fun r => ∀ c : Dev nD,
      r.2.mem ((c : Thread nD τ).loc main_v26) = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).2 main_v26 (Pipeline.mem_restRefs_of main_v26 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 7).trans (((dats m 0 c).arrAt_in 7 rfl _).trans ((A_eq m c 7).trans (V_main_arg5 m c))),
      (((h c).2 main_arg6 (Pipeline.mem_restRefs_of main_arg6 (by decide) (by decide))).trans (W_main_arg6 m (dats m) c))⟩)
    (run_main m ρ)

end Cert.KernelIdeal.Bridge

end
-- ==== Proof.lean ====
/-
  An edge-convolution layer: for each edge, the features of its source and destination nodes (64 each, gathered from
  the node table by the edge's two indices) and its 8 attributes pass through a two-layer perceptron — a 136×64
  matrix and a bias, a rectifier, a 64×64 matrix and a bias — and the resulting message is added into its destination
  node's row.

  The kernel multiplies the three pieces of an edge's input by the three row blocks of the first matrix and adds the
  products; the reference concatenates the pieces and multiplies by the whole matrix. On the extended reals these are
  one value: a sum over 136 columns split at columns 64 and 128, which needs only that addition is associative and
  commutative — no finiteness of the inputs is used. Everything else is shared operation by operation: the gathers
  before, the rectifier as a maximum with zero, the second product, the scatter-add after.

  The three programs' runs terminate with their arguments unchanged (the two kernel programs by the generated frame,
  the reference by its generated run), the idealization rewrote nothing, and the kernel's result is the reference's
  last stage read at the kernel's arguments (`Bridge.run`).
-/
import proofs.«137099_j14886356648763_1_alg».proof.Defs
import proofs.«137099_j14886356648763_1_alg».proof.Proof.Gen.Kernel
import proofs.«137099_j14886356648763_1_alg».proof.Proof.Gen.Kernel.Skeleton
import proofs.«137099_j14886356648763_1_alg».proof.Proof.Gen.Kernel.Launch
import proofs.«137099_j14886356648763_1_alg».proof.Proof.Gen.Kernel.Points
import proofs.«137099_j14886356648763_1_alg».proof.Proof.Gen.Kernel.Frame
import proofs.«137099_j14886356648763_1_alg».proof.Proof.Gen.KernelIdeal
import proofs.«137099_j14886356648763_1_alg».proof.Proof.Gen.KernelIdeal.Skeleton
import proofs.«137099_j14886356648763_1_alg».proof.Proof.Gen.KernelIdeal.Launch
import proofs.«137099_j14886356648763_1_alg».proof.Proof.Gen.KernelIdeal.Points
import proofs.«137099_j14886356648763_1_alg».proof.Proof.Gen.KernelIdeal.Frame
import proofs.«137099_j14886356648763_1_alg».proof.Proof.Gen.ReferenceIdeal
import proofs.«137099_j14886356648763_1_alg».proof.Proof.Gen.ReferenceIdeal.Run
import proofs.«137099_j14886356648763_1_alg».proof.Proof.Gen.ReferenceIdeal.Read
import proofs.«137099_j14886356648763_1_alg».proof.Proof.Gen.Pre_finite_inputs
import proofs.«137099_j14886356648763_1_alg».proof.Proof.Bridge
import Idealize.ShloMosaic.Adequacy
import Idealize.ShloMosaic.Init

noncomputable section

namespace Cert.Proof

open Idealize.ShloMosaic Idealize.SL.Sem

/-- The kernel's program, as printed, runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the reference's last stage of those arguments. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact Cert.ReferenceIdeal.Read.val_main_v30_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
